-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S256 .f32) (main_arg9 : FVec F S256x128 .f32) (main_arg10 : FVec F S256x128 .f32) (main_arg11 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S256 .f32) (main_arg6 : FVec F S256 .f32) (main_arg7 : FVec F S256 .f32) (main_arg8 : FVec F S256 .f32) (main_arg9 : FVec F S256x128 .f32) (main_arg10 : FVec F S256x128 .f32) (main_arg11 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x256 .f32) (main_arg3 : FVec F S128x256 .f32) (main_arg4 : FVec F S256 .f32) (main_arg5 : FVec F S256 .f32) (main_arg6 : FVec F S256 .f32) (main_arg7 : FVec F S256 .f32) (main_arg8 : FVec F S256 .f32) (main_arg9 : FVec F S256x128 .f32) (main_arg10 : FVec F S256x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S600000x256 : Shape := ⟨2, ![600000, 256]⟩
abbrev S1x128 : Shape := ⟨2, ![1, 128]⟩

abbrev nBuf : Space → Nat
  | .hbm => 62
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S256x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S50000, .f32⟩
  | .hbm, ⟨20, _⟩ => ⟨S600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x256, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x256, .f32⟩
  | .hbm, ⟨54, _⟩ => ⟨S_, .f32⟩
  | .hbm, ⟨55, _⟩ => ⟨S50000x256, .f32⟩
  | .hbm, ⟨56, _⟩ => ⟨S600000x1, .i32⟩
  | .hbm, ⟨57, _⟩ => ⟨S50000x256, .f32⟩
  | .hbm, ⟨58, _⟩ => ⟨S50000x1, .f32⟩
  | .hbm, ⟨59, _⟩ => ⟨S50000x256, .f32⟩
  | .hbm, ⟨60, _⟩ => ⟨S50000x256, .f32⟩
  | .hbm, ⟨61, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x128, .f32⟩
  | .local _ .vmem, ⟨18, _⟩ => ⟨S256x128, .f32⟩
  | .local _ .vmem, ⟨19, _⟩ => ⟨S128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S50000x256.size a
  hwx0_9 : ∀ i : grid0.Coords, EltTy.bits .f32 = 32 ∨ (Rect.block (s := S50000x256) S2000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S256x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S50000, .f32⟩
  | .hbm, ⟨33, _⟩ => ⟨S600000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S1x256, .f32⟩
  | .hbm, ⟨45, _⟩ => ⟨S50000x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S1x256, .f32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x256, .f32⟩
  | .hbm, ⟨65, _⟩ => ⟨S50000x256, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x256, .f32⟩
  | .hbm, ⟨75, _⟩ => ⟨S_, .f32⟩
  | .hbm, ⟨76, _⟩ => ⟨S50000x256, .f32⟩
  | .hbm, ⟨77, _⟩ => ⟨S600000x1, .i32⟩
  | .hbm, ⟨78, _⟩ => ⟨S50000x256, .f32⟩
  | .hbm, ⟨79, _⟩ => ⟨S_, .f32⟩
  | .hbm, ⟨80, _⟩ => ⟨S600000, .f32⟩
  | .hbm, ⟨81, _⟩ => ⟨S_, .f32⟩
  | .hbm, ⟨82, _⟩ => ⟨S50000, .f32⟩
  | .hbm, ⟨83, _⟩ => ⟨S600000x1, .i32⟩
  | .hbm, ⟨84, _⟩ => ⟨S50000, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S50000x1, .f32⟩
  | .hbm, ⟨89, _⟩ => ⟨S50000x256, .f32⟩
  | .hbm, ⟨90, _⟩ => ⟨S50000x256, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_c_5 : Ref sig .tc := ⟨.hbm, 66, rfl⟩
abbrev main_v45 : Ref sig .tc := ⟨.hbm, 67, rfl⟩
abbrev main_v46 : Ref sig .tc := ⟨.hbm, 68, rfl⟩
abbrev main_c_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelHost.lean ====
import proofs.«163756_j48318382080414_1_alg».proof.Proof.Gen.KernelIdeal.Frame
import Idealize.ShloMosaic.Lib.StableHlo.Run
import Idealize.ShloMosaic.PureOps.Ideal

/-!
# The host stretches of the kernel program, read

Before the first kernel the host splits the edge list into source and destination indices, counts each node's incoming
edges by a scatter-add of ones, forms the reciprocal of the count clamped below at one, gathers the source rows of the node
features, scatter-adds them at the destinations and scales row `r` by the reciprocal. Between the kernels it does the
same gather, scatter-add and scaling on the first layer's result, reusing the indices and the reciprocals. Here each of
those values is a named function of the edge list (and of the array gathered from), and the buffers the later items read
are shown to hold them.
-/

set_option maxRecDepth 16384
set_option maxHeartbeats 4000000

noncomputable section

namespace Cert.KernelIdeal.HostValue

open Cert.KernelIdeal Cert.KernelIdeal.Gen
open Idealize.ShloMosaic Idealize.ShloMosaic.TcCoe Idealize.SL.Sem Idealize.ShloMosaic.StableHlo

/-- The destination index of each edge: row 1 of the edge list. -/
def dstIdx (ei : (⟨S2x600000, .i32⟩ : BufTy).Contents (Elt Ideal)) : (⟨S600000, .i32⟩ : BufTy).Contents (Elt Ideal) :=
  shapeCast _ (extractStridedSlice S1x600000 ![1, 0] ei slices_S2x600000_S1x600000_1_0) shapeCasts_S1x600000_S600000

/-- The source index of each edge: row 0 of the edge list. -/
def srcIdx (ei : (⟨S2x600000, .i32⟩ : BufTy).Contents (Elt Ideal)) : (⟨S600000, .i32⟩ : BufTy).Contents (Elt Ideal) :=
  shapeCast _ (extractStridedSlice S1x600000 ![0, 0] ei slices_S2x600000_S1x600000_0_0) shapeCasts_S1x600000_S600000

/-- The source index with a negative value wrapped round by the number of nodes, as the gather takes it. -/
def srcWrapped (ei : (⟨S2x600000, .i32⟩ : BufTy).Contents (Elt Ideal)) : (⟨S600000, .i32⟩ : BufTy).Contents (Elt Ideal) :=
  select (cmpi .slt (srcIdx ei) (broadcastInDim S600000 ![] bcast_S_S600000 (constantI S_ 32 0#32)))
    (addi (srcIdx ei) (broadcastInDim S600000 ![] bcast_S_S600000 (constantI S_ 32 50000#32))) (srcIdx ei)

/-- The all-ones vector over the nodes. -/
def onesNodes : (⟨S50000, .f32⟩ : BufTy).Contents (Elt Ideal) :=
  broadcastInDim S50000 ![] bcast_S_S50000 (constant (F := Ideal) S_ .f32 0x3F800000#32)

/-- Each node's number of incoming edges: ones scatter-added at the destinations. -/
def degree (ei : (⟨S2x600000, .i32⟩ : BufTy).Contents (Elt Ideal)) : (⟨S50000, .f32⟩ : BufTy).Contents (Elt Ideal) :=
  Host.scatterAdd scatter_S50000_S600000x1_S600000_n_0_0_1
    (broadcastInDim S50000 ![] bcast_S_S50000 (constant (F := Ideal) S_ .f32 0x00000000#32))
    (broadcastInDim S600000x1 ![0] bcast_S600000_S600000x1_0 (dstIdx ei))
    (broadcastInDim S600000 ![] bcast_S_S600000 (constant (F := Ideal) S_ .f32 0x3F800000#32))

/-- The reciprocal of each node's degree clamped below at one. -/
def invDeg (ei : (⟨S2x600000, .i32⟩ : BufTy).Contents (Elt Ideal)) : (⟨S50000, .f32⟩ : BufTy).Contents (Elt Ideal) :=
  Host.divf (F := Ideal) (φ := .f32) onesNodes (maximumf (degree ei) onesNodes)

/-- The source rows of a 128-column array gathered and scatter-added at the destinations. -/
def summed128 (X : (⟨S50000x128, .f32⟩ : BufTy).Contents (Elt Ideal)) (ei : (⟨S2x600000, .i32⟩ : BufTy).Contents (Elt Ideal)) :
    (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 (dstIdx ei))
    (Host.gather gather_S50000x128_S600000x1_S600000x128_1_0_n_n_0_1_1128 X
      (broadcastInDim S600000x1 ![0] bcast_S600000_S600000x1_0 (srcWrapped ei)))

/-- The same for a 256-column array. -/
def summed256 (H : (⟨S50000x256, .f32⟩ : BufTy).Contents (Elt Ideal)) (ei : (⟨S2x600000, .i32⟩ : BufTy).Contents (Elt Ideal)) :
    (⟨S50000x256, .f32⟩ : BufTy).Contents (Elt Ideal) :=
  Host.scatterAdd scatter_S50000x256_S600000x1_S600000x256_1_0_0_1
    (broadcastInDim S50000x256 ![] bcast_S_S50000x256 (constant (F := Ideal) S_ .f32 0x00000000#32))
    (broadcastInDim S600000x1 ![0] bcast_S600000_S600000x1_0 (dstIdx ei))
    (Host.gather gather_S50000x256_S600000x1_S600000x256_1_0_n_n_0_1_1256 H
      (broadcastInDim S600000x1 ![0] bcast_S600000_S600000x1_0 (srcWrapped ei)))

/-- The mean over incoming neighbours as the kernel program forms it: the summed rows scaled by the reciprocals, laid
    out as a column and repeated along the row. -/
def scaled128 (X : (⟨S50000x128, .f32⟩ : BufTy).Contents (Elt Ideal)) (ei : (⟨S2x600000, .i32⟩ : BufTy).Contents (Elt Ideal)) :
    (⟨S50000x128, .f32⟩ : BufTy).Contents (Elt Ideal) :=
  mulf (F := Ideal) (φ := .f32) (summed128 X ei)
    (broadcastInDim S50000x128 ![0, 1] bcast_S50000x1_S50000x128_0_1
      (broadcastInDim S50000x1 ![0] bcast_S50000_S50000x1_0 (invDeg ei)))

def scaled256 (H : (⟨S50000x256, .f32⟩ : BufTy).Contents (Elt Ideal)) (ei : (⟨S2x600000, .i32⟩ : BufTy).Contents (Elt Ideal)) :
    (⟨S50000x256, .f32⟩ : BufTy).Contents (Elt Ideal) :=
  mulf (F := Ideal) (φ := .f32) (summed256 H ei)
    (broadcastInDim S50000x256 ![0, 1] bcast_S50000x1_S50000x256_0_1
      (broadcastInDim S50000x1 ![0] bcast_S50000_S50000x1_0 (invDeg ei)))

variable (m : (ℓ : Loc nD τ sig) → Buf (Elt Ideal) ℓ) (ρ : Dev nD → PrngReg)

/-! ## After the first stretch -/

/-- The first kernel's aggregated input is the scaled sum of the node features' source rows. -/
theorem first_agg (c : Dev nD) :
    V1 m ρ c main_v24 = scaled128 (m ((c : Thread nD τ).loc main_arg0)) (m ((c : Thread nD τ).loc main_arg1)) := by
  dsimp only [V1, W1]
  after_results
  rfl

/-- The source indices, the destination indices and the reciprocals, as the first stretch leaves them. -/
theorem first_src (c : Dev nD) : W1 m ρ c (Proc.devRef .tc main_v1) = srcIdx (m ((c : Thread nD τ).loc main_arg1)) := by
  dsimp only [W1]
  after_results
  rfl

theorem first_dst (c : Dev nD) : W1 m ρ c (Proc.devRef .tc main_v3) = dstIdx (m ((c : Thread nD τ).loc main_arg1)) := by
  dsimp only [W1]
  after_results
  rfl

theorem first_inv (c : Dev nD) : W1 m ρ c (Proc.devRef .tc main_v11) = invDeg (m ((c : Thread nD τ).loc main_arg1)) := by
  dsimp only [W1]
  after_results
  rfl

end Cert.KernelIdeal.HostValue

end
-- ==== Proof.LayerAt.lean ====
import Idealize.ShloMosaic.PureOps.Ideal.Laws
import Idealize.ShloMosaic.Lib.ValueIdx

/-!
# The two layers of a mean-aggregating graph encoder, read at one entry

A layer sends node `r` to `A r · Wₗ + X r · Wᵣ + b`: `A r` the node's aggregated neighbour row, `X r` its own row.
The first layer then normalises each column `q` with fixed statistics, `(u − μ q) · (σ² q + ε)^(-1/2) · γ q + β q`, and
clamps below at zero; the second layer stops at the sum. An entry `(r, q)` reads one row of the two node arrays, one
column of the two weight matrices and one entry of each column vector, so a block of rows and the whole array give the
same entry wherever their rows agree.
-/

noncomputable section

namespace Cert.SageEncoder

open Idealize.ShloMosaic Idealize.ShloMosaic.ValueIdx

/-- Entry `(r, q)` of `A · Wₗ + X · Wᵣ + b`: the two row-by-column sums, then the bias. -/
def denseAt {n K N : Nat} (agg x : (⟨2, ![n, K]⟩ : Shape).Idx → EReal) (wl wr : (⟨2, ![K, N]⟩ : Shape).Idx → EReal)
    (b : (⟨1, ![N]⟩ : Shape).Idx → EReal) (r : Fin n) (q : Fin N) : EReal :=
  ((∑ k : Fin K, agg (ix2 r k) * wl (ix2 k q)) + ∑ k : Fin K, x (ix2 r k) * wr (ix2 k q)) + b (ix1 q)

/-- Normalisation with fixed statistics, then the clamp at zero: `max ((u − μ) · (σ² + ε)^(-1/2) · γ + β) 0`, the
    words `0x3727C5AC` and `0x00000000` being the floats `ε` and zero. -/
def normRelu (u g be mu va : EReal) : EReal :=
  max ((u - mu) * Ideal.rsqrt (va + Ideal.ofBits .f32 0x3727C5AC#32) * g + be) (Ideal.ofBits .f32 0x00000000#32)

/-- Entry `(r, q)` of the first layer: the sum normalised and clamped with column `q`'s statistics. -/
def hiddenAt {n K N : Nat} (agg x : (⟨2, ![n, K]⟩ : Shape).Idx → EReal) (wl wr : (⟨2, ![K, N]⟩ : Shape).Idx → EReal)
    (b g be mu va : (⟨1, ![N]⟩ : Shape).Idx → EReal) (r : Fin n) (q : Fin N) : EReal :=
  normRelu (denseAt agg x wl wr b r q) (g (ix1 q)) (be (ix1 q)) (mu (ix1 q)) (va (ix1 q))

/-- Two pairs of node arrays (of any numbers of rows) that agree on row `r` of one and row `r'` of the other give the
    same entry of the sum. -/
theorem denseAt_congr {n n' K N : Nat} (agg x : (⟨2, ![n, K]⟩ : Shape).Idx → EReal)
    (agg' x' : (⟨2, ![n', K]⟩ : Shape).Idx → EReal) (wl wr : (⟨2, ![K, N]⟩ : Shape).Idx → EReal)
    (b : (⟨1, ![N]⟩ : Shape).Idx → EReal) (r : Fin n) (r' : Fin n') (q : Fin N)
    (hagg : ∀ k : Fin K, agg (ix2 r k) = agg' (ix2 r' k)) (hx : ∀ k : Fin K, x (ix2 r k) = x' (ix2 r' k)) :
    denseAt agg x wl wr b r q = denseAt agg' x' wl wr b r' q := by
  unfold denseAt
  refine congrArg (· + _) (congrArg₂ (· + ·) (Finset.sum_congr rfl fun k _ => ?_) (Finset.sum_congr rfl fun k _ => ?_))
  · rw [hagg k]
  · rw [hx k]

/-- The same for the first layer. -/
theorem hiddenAt_congr {n n' K N : Nat} (agg x : (⟨2, ![n, K]⟩ : Shape).Idx → EReal)
    (agg' x' : (⟨2, ![n', K]⟩ : Shape).Idx → EReal) (wl wr : (⟨2, ![K, N]⟩ : Shape).Idx → EReal)
    (b g be mu va : (⟨1, ![N]⟩ : Shape).Idx → EReal) (r : Fin n) (r' : Fin n') (q : Fin N)
    (hagg : ∀ k : Fin K, agg (ix2 r k) = agg' (ix2 r' k)) (hx : ∀ k : Fin K, x (ix2 r k) = x' (ix2 r' k)) :
    hiddenAt agg x wl wr b g be mu va r q = hiddenAt agg' x' wl wr b g be mu va r' q := by
  unfold hiddenAt
  rw [denseAt_congr agg x agg' x' wl wr b r r' q hagg hx]

/-- The second layer's whole result array: entry `(r, q)` at every index. -/
def denseArr {n K N : Nat} (agg x : (⟨2, ![n, K]⟩ : Shape).Idx → EReal) (wl wr : (⟨2, ![K, N]⟩ : Shape).Idx → EReal)
    (b : (⟨1, ![N]⟩ : Shape).Idx → EReal) : (⟨2, ![n, N]⟩ : Shape).Idx → EReal :=
  fun i => denseAt agg x wl wr b (i 0) (i 1)

/-- The first layer's whole result array. -/
def hiddenArr {n K N : Nat} (agg x : (⟨2, ![n, K]⟩ : Shape).Idx → EReal) (wl wr : (⟨2, ![K, N]⟩ : Shape).Idx → EReal)
    (b g be mu va : (⟨1, ![N]⟩ : Shape).Idx → EReal) : (⟨2, ![n, N]⟩ : Shape).Idx → EReal :=
  fun i => hiddenAt agg x wl wr b g be mu va (i 0) (i 1)

theorem denseArr_apply {n K N : Nat} (agg x : (⟨2, ![n, K]⟩ : Shape).Idx → EReal) (wl wr : (⟨2, ![K, N]⟩ : Shape).Idx → EReal)
    (b : (⟨1, ![N]⟩ : Shape).Idx → EReal) (r : Fin n) (q : Fin N) :
    denseArr agg x wl wr b (ix2 r q) = denseAt agg x wl wr b r q := rfl

theorem hiddenArr_apply {n K N : Nat} (agg x : (⟨2, ![n, K]⟩ : Shape).Idx → EReal) (wl wr : (⟨2, ![K, N]⟩ : Shape).Idx → EReal)
    (b g be mu va : (⟨1, ![N]⟩ : Shape).Idx → EReal) (r : Fin n) (q : Fin N) :
    hiddenArr agg x wl wr b g be mu va (ix2 r q) = hiddenAt agg x wl wr b g be mu va r q := rfl

end Cert.SageEncoder

end
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.KernelPayload.lean ====
import proofs.«163756_j48318382080414_1_alg».proof.Proof.Gen.KernelIdeal.Skeleton
import proofs.«163756_j48318382080414_1_alg».proof.Proof.LayerAt
import proofs.«163756_j48318382080414_1_alg».proof.Proof.LibPlainMatmul
import Idealize.ShloMosaic.Lib.ValueLayout

/-!
# What each kernel body stores, read at one entry

Each body works on a block of 2000 node rows. It rounds the two row blocks and the two weight matrices to a narrower
float format (no change of value over the extended reals), multiplies each block with its matrix into a zero
accumulator, adds the two products and the bias row, and — in the first kernel — normalises with the column statistics and
clamps at zero. Entry `(p, q)` of what it stores is therefore the layer's entry formula on the block.
-/

noncomputable section

namespace Cert.KernelIdeal.Payload

open Cert.KernelIdeal Cert.KernelIdeal.Gen Cert.SageEncoder Idealize.ShloMosaic Idealize.ShloMosaic.ValueIdx

/-- The first kernel's products are plain rows-by-columns products of a 2000 × 128 block with a 128 × 256 matrix. -/
theorem dims1_plain : dot_S2000x128_S128x256_S2000x256_1_0_0_1_n_n = DotDims.plain 2000 128 256 := rfl

/-- The second kernel's are of a 2000 × 256 block with a 256 × 128 matrix. -/
theorem dims2_plain : dot_S2000x256_S256x128_S2000x128_1_0_0_1_n_n = DotDims.plain 2000 256 128 := rfl

/-- A vector laid out as one row and repeated down a block reads, at `(p, q)`, the vector at `q`. -/
theorem rowDown_apply {a b : ℕ} (v : (⟨1, ![b]⟩ : Shape).Idx → EReal) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) := by
  rw [broadcastTo_1b_ab_apply, shapeCast_a_1a_apply]

/-- Entry `(p, q)` of what the second kernel stores: the block's entry of `A · Wₗ + H · Wᵣ + b`. -/
theorem pay2_apply (v0 v3 : Vec Ideal S2000x256 .f32) (v6 v8 : Vec Ideal S256x128 .f32) (v13 : Vec Ideal S128 .f32)
    (p : Fin 2000) (q : Fin 128) :
    k1_pay1 (F := Ideal) v0 v3 v6 v8 v13 (ix2 p q) = denseAt v0 v3 v6 v8 v13 p q := by
  unfold k1_pay1 denseAt
  rw [dims2_plain]
  have prod : ∀ (l : FVec Ideal ⟨2, ![2000, 256]⟩ .bf16) (r : FVec Ideal ⟨2, ![256, 128]⟩ .bf16),
      matmul (DotDims.plain 2000 256 128) none l r (constant S2000x128 .f32 0x00000000#32) (ix2 p q)
        = ∑ k : Fin 256, l (ix2 p k) * r (ix2 k q) :=
    fun l r => PlainMatmul.matmul_plain_zero_apply 2000 256 128 none l r p q
  rw [addf_apply, addf_apply, prod, prod, rowDown_apply]
  simp only [truncf_apply, shapeCast_self]

/-- Entry `(p, q)` of what the first kernel stores: the block's entry of the normalised and clamped sum. The kernel
    reads the bias, the variances, the means, the scales and the shifts in that order. -/
theorem pay1_apply (v0 v3 : Vec Ideal S2000x128 .f32) (v5 v7 : Vec Ideal S128x256 .f32)
    (v12 v16 v20 v27 v31 : Vec Ideal S256 .f32) (p : Fin 2000) (q : Fin 256) :
    k0_pay1 (F := Ideal) v0 v3 v5 v7 v12 v16 v20 v27 v31 (ix2 p q) = hiddenAt v0 v3 v5 v7 v12 v27 v31 v20 v16 p q := by
  unfold k0_pay1 hiddenAt normRelu denseAt
  rw [dims1_plain]
  have prod : ∀ (l : FVec Ideal ⟨2, ![2000, 128]⟩ .bf16) (r : FVec Ideal ⟨2, ![128, 256]⟩ .bf16),
      matmul (DotDims.plain 2000 128 256) none l r (constant S2000x256 .f32 0x00000000#32) (ix2 p q)
        = ∑ k : Fin 128, l (ix2 p k) * r (ix2 k q) :=
    fun l r => PlainMatmul.matmul_plain_zero_apply 2000 128 256 none l r p q
  rw [maximumf_apply, addf_apply, mulf_apply, mulf_apply, subf_apply, addf_apply, addf_apply, prod, prod,
    rowDown_apply, rowDown_apply, rowDown_apply, rowDown_apply, rowDown_apply, broadcast_apply]
  simp only [truncf_apply, shapeCast_self]
  rfl

end Cert.KernelIdeal.Payload

end
-- ==== Proof.KernelRegions.lean ====
import proofs.«163756_j48318382080414_1_alg».proof.Proof.Gen.KernelIdeal.Frame
import proofs.«163756_j48318382080414_1_alg».proof.Proof.KernelPayload
import Idealize.ShloMosaic.Lib.Pipeline.Value

/-!
# What each kernel region leaves in its result array

A region runs its body once per block of 2000 node rows: point `t` reads rows `2000 t … 2000 t + 1999` of the two node
arrays, the whole weight matrices and column vectors, and writes rows `2000 t … 2000 t + 1999` of the result. The body's
entry `(p, q)` is the layer's entry formula on the block (the payload lemmas), a block's row `p` is the array's row
`2000 t + p`, and the 25 blocks tile the 50000 rows, so the region's result array is the layer's whole-array function of
the arrays as the region finds them.
-/

set_option maxRecDepth 16384

noncomputable section

namespace Cert.KernelIdeal.Regions

open Cert.KernelIdeal Cert.KernelIdeal.Gen Cert.SageEncoder
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The first kernel's region -/

/-- The printed index maps, decided over the grid: the two node windows and the result window are at block row `t`,
    the weights and the five column vectors at block zero. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0
    ∧ win0_9.index t (0 : Fin 2) = t.val ∧ win0_9.index t (1 : Fin 2) = 0 :=
  (by decide +kernel : ∀ t : Fin grid0.N, _)

/-- The blocks and arrays of the region by their literal types. -/
abbrev aggBlk0 (c : Dev nD) (t : Fin cfg0.N) : Vec Ideal S2000x128 .f32 := iblk0 V c 0 t
abbrev featBlk0 (c : Dev nD) (t : Fin cfg0.N) : Vec Ideal S2000x128 .f32 := iblk0 V c 1 t
abbrev wlBlk0 (c : Dev nD) (t : Fin cfg0.N) : Vec Ideal S128x256 .f32 := iblk0 V c 2 t
abbrev wrBlk0 (c : Dev nD) (t : Fin cfg0.N) : Vec Ideal S128x256 .f32 := iblk0 V c 3 t
abbrev biasBlk0 (c : Dev nD) (t : Fin cfg0.N) : Vec Ideal S256 .f32 := iblk0 V c 4 t
abbrev scaleBlk0 (c : Dev nD) (t : Fin cfg0.N) : Vec Ideal S256 .f32 := iblk0 V c 5 t
abbrev shiftBlk0 (c : Dev nD) (t : Fin cfg0.N) : Vec Ideal S256 .f32 := iblk0 V c 6 t
abbrev meanBlk0 (c : Dev nD) (t : Fin cfg0.N) : Vec Ideal S256 .f32 := iblk0 V c 7 t
abbrev varBlk0 (c : Dev nD) (t : Fin cfg0.N) : Vec Ideal S256 .f32 := iblk0 V c 8 t
abbrev aggArr0 (c : Dev nD) : Vec Ideal S50000x128 .f32 := V c main_v24
abbrev featArr0 (c : Dev nD) : Vec Ideal S50000x128 .f32 := V c main_arg0
abbrev wlArr0 (c : Dev nD) : Vec Ideal S128x256 .f32 := V c main_arg2
abbrev wrArr0 (c : Dev nD) : Vec Ideal S128x256 .f32 := V c main_arg3
abbrev biasArr0 (c : Dev nD) : Vec Ideal S256 .f32 := V c main_arg4
abbrev scaleArr0 (c : Dev nD) : Vec Ideal S256 .f32 := V c main_arg5
abbrev shiftArr0 (c : Dev nD) : Vec Ideal S256 .f32 := V c main_arg6
abbrev meanArr0 (c : Dev nD) : Vec Ideal S256 .f32 := V c main_arg7
abbrev varArr0 (c : Dev nD) : Vec Ideal S256 .f32 := V c main_arg8

/-- Row `p` of point `t`'s aggregated block is row `2000 t + p` of the aggregated array. -/
theorem aggBlk0_apply (c : Dev nD) (t : Fin cfg0.N) (p : Fin 2000) (k : Fin 128) (r : Fin 50000)
    (hr : r.val = 2000 * t.val + p.val) : aggBlk0 V c t (ix2 p k) = aggArr0 V c (ix2 r k) := by
  obtain ⟨e0, e1, -⟩ := idx0 t
  unfold aggBlk0 aggArr0 iblk0
  rw [View.read_apply]
  show V c main_v24 _ = V c main_v24 _
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The same for the node features. -/
theorem featBlk0_apply (c : Dev nD) (t : Fin cfg0.N) (p : Fin 2000) (k : Fin 128) (r : Fin 50000)
    (hr : r.val = 2000 * t.val + p.val) : featBlk0 V c t (ix2 p k) = featArr0 V c (ix2 r k) := by
  obtain ⟨-, -, e0, e1, -⟩ := idx0 t
  unfold featBlk0 featArr0 iblk0
  rw [View.read_apply]
  show V c main_arg0 _ = V c main_arg0 _
  refine congrArg _ (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- A weight window's one block is the whole matrix, at every point. -/
theorem wlBlk0_eq (c : Dev nD) (t : Fin cfg0.N) : wlBlk0 V c t = wlArr0 V c := by
  obtain ⟨-, -, -, -, e0, e1, -⟩ := idx0 t
  unfold wlBlk0 wlArr0 iblk0
  funext z
  rw [View.read_apply]
  show V c main_arg2 _ = V c main_arg2 _
  refine congrArg _ (funext fun a => Fin.ext ?_)
  match a with
  | ⟨0, _⟩ => show win0_2.index t (0 : Fin 2) * 128 + 1 * (z 0).val = (z 0).val; rw [e0]; omega
  | ⟨1, _⟩ => show win0_2.index t (1 : Fin 2) * 256 + 1 * (z 1).val = (z 1).val; rw [e1]; omega

theorem wrBlk0_eq (c : Dev nD) (t : Fin cfg0.N) : wrBlk0 V c t = wrArr0 V c := by
  obtain ⟨-, -, -, -, -, -, e0, e1, -⟩ := idx0 t
  unfold wrBlk0 wrArr0 iblk0
  funext z
  rw [View.read_apply]
  show V c main_arg3 _ = V c main_arg3 _
  refine congrArg _ (funext fun a => Fin.ext ?_)
  match a with
  | ⟨0, _⟩ => show win0_3.index t (0 : Fin 2) * 128 + 1 * (z 0).val = (z 0).val; rw [e0]; omega
  | ⟨1, _⟩ => show win0_3.index t (1 : Fin 2) * 256 + 1 * (z 1).val = (z 1).val; rw [e1]; omega

/-- A column vector's one block is the whole vector: the bias, -/
theorem biasBlk0_eq (c : Dev nD) (t : Fin cfg0.N) : biasBlk0 V c t = biasArr0 V c := by
  have e0 : win0_4.index t (0 : Fin 1) = 0 := (idx0 t).2.2.2.2.2.2.2.2.1
  unfold biasBlk0 biasArr0 iblk0
  funext z
  rw [View.read_apply]
  show V c main_arg4 _ = V c main_arg4 _
  refine congrArg _ (funext fun a => Fin.ext ?_)
  match a with
  | ⟨0, _⟩ => show win0_4.index t (0 : Fin 1) * 256 + 1 * (z 0).val = (z 0).val; rw [e0]; omega

/-- the scales, -/
theorem scaleBlk0_eq (c : Dev nD) (t : Fin cfg0.N) : scaleBlk0 V c t = scaleArr0 V c := by
  have e0 : win0_5.index t (0 : Fin 1) = 0 := (idx0 t).2.2.2.2.2.2.2.2.2.1
  unfold scaleBlk0 scaleArr0 iblk0
  funext z
  rw [View.read_apply]
  show V c main_arg5 _ = V c main_arg5 _
  refine congrArg _ (funext fun a => Fin.ext ?_)
  match a with
  | ⟨0, _⟩ => show win0_5.index t (0 : Fin 1) * 256 + 1 * (z 0).val = (z 0).val; rw [e0]; omega

/-- the shifts, -/
theorem shiftBlk0_eq (c : Dev nD) (t : Fin cfg0.N) : shiftBlk0 V c t = shiftArr0 V c := by
  have e0 : win0_6.index t (0 : Fin 1) = 0 := (idx0 t).2.2.2.2.2.2.2.2.2.2.1
  unfold shiftBlk0 shiftArr0 iblk0
  funext z
  rw [View.read_apply]
  show V c main_arg6 _ = V c main_arg6 _
  refine congrArg _ (funext fun a => Fin.ext ?_)
  match a with
  | ⟨0, _⟩ => show win0_6.index t (0 : Fin 1) * 256 + 1 * (z 0).val = (z 0).val; rw [e0]; omega

/-- the means, -/
theorem meanBlk0_eq (c : Dev nD) (t : Fin cfg0.N) : meanBlk0 V c t = meanArr0 V c := by
  have e0 : win0_7.index t (0 : Fin 1) = 0 := (idx0 t).2.2.2.2.2.2.2.2.2.2.2.1
  unfold meanBlk0 meanArr0 iblk0
  funext z
  rw [View.read_apply]
  show V c main_arg7 _ = V c main_arg7 _
  refine congrArg _ (funext fun a => Fin.ext ?_)
  match a with
  | ⟨0, _⟩ => show win0_7.index t (0 : Fin 1) * 256 + 1 * (z 0).val = (z 0).val; rw [e0]; omega

/-- and the variances. -/
theorem varBlk0_eq (c : Dev nD) (t : Fin cfg0.N) : varBlk0 V c t = varArr0 V c := by
  have e0 : win0_8.index t (0 : Fin 1) = 0 := (idx0 t).2.2.2.2.2.2.2.2.2.2.2.2.1
  unfold varBlk0 varArr0 iblk0
  funext z
  rw [View.read_apply]
  show V c main_arg8 _ = V c main_arg8 _
  refine congrArg _ (funext fun a => Fin.ext ?_)
  match a with
  | ⟨0, _⟩ => show win0_8.index t (0 : Fin 1) * 256 + 1 * (z 0).val = (z 0).val; rw [e0]; omega

/-- What point `t` writes back is block `t` of the layer's whole-array function of the arrays as the region finds them. -/
theorem flushed0 (c : Dev nD) (t : Fin cfg0.N) :
    (dat0 V c).flushed 9 t = ((cfg0.win 9).blk t).view.read (Elt Ideal)
      (hiddenArr (aggArr0 V c) (featArr0 V c) (wlArr0 V c) (wrArr0 V c) (biasArr0 V c) (scaleArr0 V c) (shiftArr0 V c)
        (meanArr0 V c) (varArr0 V c)) := by
  show (cfg0.win 9).cut (grid0.coords t) ((dat0 V c).after 9 t) = _
  rw [after0_9]
  unfold out0_9
  rw [View.canon_unit_zero hz2]
  simp only [View.ld_unit_zero (S := S2000x128) hz2, View.ld_unit_zero (S := S128x256) hz2, View.ld_unit_zero (S := S256) hz1]
  have e0 : win0_9.index t (0 : Fin 2) = t.val := (idx0 t).2.2.2.2.2.2.2.2.2.2.2.2.2.1
  have e1 : win0_9.index t (1 : Fin 2) = 0 := (idx0 t).2.2.2.2.2.2.2.2.2.2.2.2.2.2
  have hN : t.val < 25 := lt_of_lt_of_eq t.isLt N_0
  funext y
  have hy0 : (y 0).val < 2000 := (y 0).isLt
  have hy1 : (y 1).val < 256 := (y 1).isLt
  have hx : (win0 9).xinj (grid0.coords t) y = ix2 (⟨(y 0).val, hy0⟩ : Fin 2000) (⟨(y 1).val, hy1⟩ : Fin 256) :=
    funext fun a => Fin.ext (by match a with | ⟨0, _⟩ => rfl | ⟨1, _⟩ => rfl)
  have hemb : ((cfg0.win 9).blk t).view.emb y
      = ix2 (⟨2000 * t.val + (y 0).val, by omega⟩ : Fin 50000) (⟨(y 1).val, hy1⟩ : Fin 256) :=
    funext fun a => Fin.ext (by
      match a with
      | ⟨0, _⟩ => show win0_9.index t (0 : Fin 2) * 2000 + 1 * (y 0).val = 2000 * t.val + (y 0).val; rw [e0]; omega
      | ⟨1, _⟩ => show win0_9.index t (1 : Fin 2) * 256 + 1 * (y 1).val = (y 1).val; rw [e1]; omega)
  show k0_pay1 (F := Ideal) (aggBlk0 V c t) (featBlk0 V c t) (wlBlk0 V c t) (wrBlk0 V c t) (biasBlk0 V c t) (varBlk0 V c t)
      (meanBlk0 V c t) (scaleBlk0 V c t) (shiftBlk0 V c t) ((win0 9).xinj (grid0.coords t) y) = _
  rw [View.read_apply, hx, hemb, Payload.pay1_apply, hiddenArr_apply, wlBlk0_eq, wrBlk0_eq, biasBlk0_eq, scaleBlk0_eq,
    shiftBlk0_eq, meanBlk0_eq, varBlk0_eq]
  exact hiddenAt_congr _ _ _ _ _ _ _ _ _ _ _ _ _ _ (fun k => aggBlk0_apply V c t _ k _ rfl) (fun k => featBlk0_apply V c t _ k _ rfl)

/-- An index of the result array is in point `t`'s block iff its row is among the block's 2000 rows. -/
theorem mem_blk0 (t : Fin cfg0.N) (i : S50000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v25).slice (win0_9.rect t)).set ↔ _
  rw [View.set_slice_whole, Rect.mem_set_unit]
  exact Iff.rfl

/-- The 25 blocks tile the 50000 rows: row `r` is in the block of point `r / 2000`. -/
theorem cover0 (i : S50000x256.Idx) : ∃ t : Fin cfg0.N, (cfg0.win 9).flush t = true ∧ i ∈ ((cfg0.win 9).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  have e0 : win0_9.index t (0 : Fin 2) = t.val := (idx0 t).2.2.2.2.2.2.2.2.2.2.2.2.2.1
  have e1 : win0_9.index t (1 : Fin 2) = 0 := (idx0 t).2.2.2.2.2.2.2.2.2.2.2.2.2.2
  refine ⟨t, flush0_9 t, ?_⟩
  rw [mem_blk0]
  intro a
  have ht : t.val = (i 0).val / 2000 := rfl
  match a with
  | ⟨0, _⟩ => show win0_9.index t (0 : Fin 2) * 2000 ≤ (i 0).val ∧ (i 0).val < win0_9.index t (0 : Fin 2) * 2000 + 2000; rw [e0, ht]; omega
  | ⟨1, _⟩ => show win0_9.index t (1 : Fin 2) * 256 ≤ (i 1).val ∧ (i 1).val < win0_9.index t (1 : Fin 2) * 256 + 256; rw [e1]; omega

/-- The first region's result array: the first layer's whole-array function of the arrays as the region finds them. -/
theorem final0 (c : Dev nD) : (dat0 V c).arrAt 9 cfg0.N
    = hiddenArr (aggArr0 V c) (featArr0 V c) (wlArr0 V c) (wrArr0 V c) (biasArr0 V c) (scaleArr0 V c) (shiftArr0 V c)
        (meanArr0 V c) (varArr0 V c) :=
  (dat0 V c).arrAt_eq_of_cover 9 _ (fun t _ => flushed0 V c t) cover0

/-! ## The second kernel's region -/

/-- The printed index maps, decided over the grid: the two node windows and the result window are at block row `t`,
    the weights and the bias at block zero. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The blocks and arrays of the region by their literal types. -/
abbrev aggBlk1 (c : Dev nD) (t : Fin cfg1.N) : Vec Ideal S2000x256 .f32 := iblk1 V c 0 t
abbrev hidBlk1 (c : Dev nD) (t : Fin cfg1.N) : Vec Ideal S2000x256 .f32 := iblk1 V c 1 t
abbrev wlBlk1 (c : Dev nD) (t : Fin cfg1.N) : Vec Ideal S256x128 .f32 := iblk1 V c 2 t
abbrev wrBlk1 (c : Dev nD) (t : Fin cfg1.N) : Vec Ideal S256x128 .f32 := iblk1 V c 3 t
abbrev bBlk1 (c : Dev nD) (t : Fin cfg1.N) : Vec Ideal S128 .f32 := iblk1 V c 4 t
abbrev aggArr1 (c : Dev nD) : Vec Ideal S50000x256 .f32 := V c main_v38
abbrev hidArr1 (c : Dev nD) : Vec Ideal S50000x256 .f32 := V c main_v25
abbrev wlArr1 (c : Dev nD) : Vec Ideal S256x128 .f32 := V c main_arg9
abbrev wrArr1 (c : Dev nD) : Vec Ideal S256x128 .f32 := V c main_arg10
abbrev bArr1 (c : Dev nD) : Vec Ideal S128 .f32 := V c main_arg11

/-- Row `p` of point `t`'s aggregated block is row `2000 t + p` of the aggregated array. -/
theorem aggBlk1_apply (c : Dev nD) (t : Fin cfg1.N) (p : Fin 2000) (k : Fin 256) (r : Fin 50000)
    (hr : r.val = 2000 * t.val + p.val) : aggBlk1 V c t (ix2 p k) = aggArr1 V c (ix2 r k) := by
  obtain ⟨e0, e1, -⟩ := idx1 t
  unfold aggBlk1 aggArr1 iblk1
  rw [View.read_apply]
  show V c main_v38 _ = V c main_v38 _
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- The same for the first layer's result. -/
theorem hidBlk1_apply (c : Dev nD) (t : Fin cfg1.N) (p : Fin 2000) (k : Fin 256) (r : Fin 50000)
    (hr : r.val = 2000 * t.val + p.val) : hidBlk1 V c t (ix2 p k) = hidArr1 V c (ix2 r k) := by
  obtain ⟨-, -, e0, e1, -⟩ := idx1 t
  unfold hidBlk1 hidArr1 iblk1
  rw [View.read_apply]
  show V c main_v25 _ = V c main_v25 _
  refine congrArg _ (funext fun a => Fin.ext ?_)
  match a with
  | ⟨0, _⟩ => show win1_1.index t (0 : Fin 2) * 2000 + 1 * p.val = r.val; rw [e0, hr]; omega
  | ⟨1, _⟩ => show win1_1.index t (1 : Fin 2) * 256 + 1 * k.val = k.val; rw [e1]; omega

/-- A weight window's one block is the whole matrix, at every point. -/
theorem wlBlk1_eq (c : Dev nD) (t : Fin cfg1.N) : wlBlk1 V c t = wlArr1 V c := by
  obtain ⟨-, -, -, -, e0, e1, -⟩ := idx1 t
  unfold wlBlk1 wlArr1 iblk1
  funext z
  rw [View.read_apply]
  show V c main_arg9 _ = V c main_arg9 _
  refine congrArg _ (funext fun a => Fin.ext ?_)
  match a with
  | ⟨0, _⟩ => show win1_2.index t (0 : Fin 2) * 256 + 1 * (z 0).val = (z 0).val; rw [e0]; omega
  | ⟨1, _⟩ => show win1_2.index t (1 : Fin 2) * 128 + 1 * (z 1).val = (z 1).val; rw [e1]; omega

theorem wrBlk1_eq (c : Dev nD) (t : Fin cfg1.N) : wrBlk1 V c t = wrArr1 V c := by
  obtain ⟨-, -, -, -, -, -, e0, e1, -⟩ := idx1 t
  unfold wrBlk1 wrArr1 iblk1
  funext z
  rw [View.read_apply]
  show V c main_arg10 _ = V c main_arg10 _
  refine congrArg _ (funext fun a => Fin.ext ?_)
  match a with
  | ⟨0, _⟩ => show win1_3.index t (0 : Fin 2) * 256 + 1 * (z 0).val = (z 0).val; rw [e0]; omega
  | ⟨1, _⟩ => show win1_3.index t (1 : Fin 2) * 128 + 1 * (z 1).val = (z 1).val; rw [e1]; omega

/-- The bias window's one block is the whole vector. -/
theorem bBlk1_eq (c : Dev nD) (t : Fin cfg1.N) : bBlk1 V c t = bArr1 V c := by
  obtain ⟨-, -, -, -, -, -, -, -, e0, -⟩ := idx1 t
  unfold bBlk1 bArr1 iblk1
  funext z
  rw [View.read_apply]
  show V c main_arg11 _ = V c main_arg11 _
  refine congrArg _ (funext fun a => Fin.ext ?_)
  match a with
  | ⟨0, _⟩ => show win1_4.index t (0 : Fin 1) * 128 + 1 * (z 0).val = (z 0).val; rw [e0]; omega

/-- What point `t` writes back is block `t` of the layer's whole-array function of the arrays as the region finds them. -/
theorem flushed1 (c : Dev nD) (t : Fin cfg1.N) :
    (dat1 V c).flushed 5 t = ((cfg1.win 5).blk t).view.read (Elt Ideal)
      (denseArr (aggArr1 V c) (hidArr1 V c) (wlArr1 V c) (wrArr1 V c) (bArr1 V c)) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256x128) hz2, View.ld_unit_zero (S := S128) hz1]
  obtain ⟨-, -, -, -, -, -, -, -, -, e0, e1⟩ := idx1 t
  have hN : t.val < 25 := lt_of_lt_of_eq t.isLt N_1
  funext y
  have hy0 : (y 0).val < 2000 := (y 0).isLt
  have hy1 : (y 1).val < 128 := (y 1).isLt
  have hx : (win1 5).xinj (grid1.coords t) y = ix2 (⟨(y 0).val, hy0⟩ : Fin 2000) (⟨(y 1).val, hy1⟩ : Fin 128) :=
    funext fun a => Fin.ext (by match a with | ⟨0, _⟩ => rfl | ⟨1, _⟩ => rfl)
  have hemb : ((cfg1.win 5).blk t).view.emb y
      = ix2 (⟨2000 * t.val + (y 0).val, by omega⟩ : Fin 50000) (⟨(y 1).val, hy1⟩ : Fin 128) :=
    funext fun a => Fin.ext (by
      match a with
      | ⟨0, _⟩ => show win1_5.index t (0 : Fin 2) * 2000 + 1 * (y 0).val = 2000 * t.val + (y 0).val; rw [e0]; omega
      | ⟨1, _⟩ => show win1_5.index t (1 : Fin 2) * 128 + 1 * (y 1).val = (y 1).val; rw [e1]; omega)
  show k1_pay1 (F := Ideal) (aggBlk1 V c t) (hidBlk1 V c t) (wlBlk1 V c t) (wrBlk1 V c t) (bBlk1 V c t)
      ((win1 5).xinj (grid1.coords t) y) = _
  rw [View.read_apply, hx, hemb, Payload.pay2_apply, denseArr_apply, wlBlk1_eq, wrBlk1_eq, bBlk1_eq]
  exact denseAt_congr _ _ _ _ _ _ _ _ _ _ (fun k => aggBlk1_apply V c t _ k _ rfl) (fun k => hidBlk1_apply V c t _ k _ rfl)

/-- An index of the result array is in point `t`'s block iff its row is among the block's 2000 rows. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v39).slice (win1_5.rect t)).set ↔ _
  rw [View.set_slice_whole, Rect.mem_set_unit]
  exact Iff.rfl

/-- The 25 blocks tile the 50000 rows: row `r` is in the block of point `r / 2000`. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, -, e0, e1⟩ := idx1 t
  refine ⟨t, flush1_5 t, ?_⟩
  rw [mem_blk1]
  intro a
  have ht : t.val = (i 0).val / 2000 := rfl
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 128 ≤ (i 1).val ∧ (i 1).val < win1_5.index t (1 : Fin 2) * 128 + 128; rw [e1]; omega

/-- The second region's result array: the layer's whole-array function of the arrays as the region finds them. -/
theorem final1 (c : Dev nD) : (dat1 V c).arrAt 5 cfg1.N
    = denseArr (aggArr1 V c) (hidArr1 V c) (wlArr1 V c) (wrArr1 V c) (bArr1 V c) :=
  (dat1 V c).arrAt_eq_of_cover 5 _ (fun t _ => flushed1 V c t) cover1

end Cert.KernelIdeal.Regions

end
-- ==== Proof.KernelValue.lean ====
import proofs.«163756_j48318382080414_1_alg».proof.Proof.KernelHost
import proofs.«163756_j48318382080414_1_alg».proof.Proof.KernelRegions
import proofs.«163756_j48318382080414_1_alg».proof.Proof.KernelRun

/-!
# The kernel program's result as one function of its arguments

The first region finds the scaled neighbour sum of the node features and the arguments as launched, so it leaves the
first layer's result `hidden`; the second stretch forms the scaled neighbour sum of `hidden`, and the second region,
finding that, `hidden` and the arguments as launched, leaves `A₂ · W₂ₗ + hidden · W₂ᵣ + b₂` in the result array.
-/

set_option maxRecDepth 16384
set_option maxHeartbeats 4000000

noncomputable section

namespace Cert.KernelIdeal.Result

open Cert.KernelIdeal Cert.KernelIdeal.Gen Cert.KernelIdeal.HostValue Cert.KernelIdeal.Regions Cert.SageEncoder
open Idealize.ShloMosaic Idealize.ShloMosaic.TcCoe Idealize.SL.Sem Idealize.ShloMosaic.StableHlo

/-- The first layer's result as the kernel program computes it, as a function of the argument arrays. -/
def hiddenFn (x : (⟨S50000x128, .f32⟩ : BufTy).Contents (Elt Ideal)) (ei : (⟨S2x600000, .i32⟩ : BufTy).Contents (Elt Ideal))
    (wl wr : (⟨S128x256, .f32⟩ : BufTy).Contents (Elt Ideal)) (b g be mu va : (⟨S256, .f32⟩ : BufTy).Contents (Elt Ideal)) :
    (⟨S50000x256, .f32⟩ : BufTy).Contents (Elt Ideal) :=
  hiddenArr (scaled128 x ei) x wl wr b g be mu va

/-- The program's result as a function of the argument arrays. -/
def resultFn (x : (⟨S50000x128, .f32⟩ : BufTy).Contents (Elt Ideal)) (ei : (⟨S2x600000, .i32⟩ : BufTy).Contents (Elt Ideal))
    (wl wr : (⟨S128x256, .f32⟩ : BufTy).Contents (Elt Ideal)) (b g be mu va : (⟨S256, .f32⟩ : BufTy).Contents (Elt Ideal))
    (wl2 wr2 : (⟨S256x128, .f32⟩ : BufTy).Contents (Elt Ideal)) (b2 : (⟨S128, .f32⟩ : BufTy).Contents (Elt Ideal)) :
    (⟨S50000x128, .f32⟩ : BufTy).Contents (Elt Ideal) :=
  denseArr (scaled256 (hiddenFn x ei wl wr b g be mu va) ei) (hiddenFn x ei wl wr b g be mu va) wl2 wr2 b2

variable (m : (ℓ : Loc nD τ sig) → Buf (Elt Ideal) ℓ) (ρ : Dev nD → PrngReg)

/-! ## The first region -/

/-- No operation of the first stretch writes an argument: the first region finds each as launched. -/
theorem first_arg0 (c : Dev nD) : V1 m ρ c main_arg0 = m ((c : Thread nD τ).loc main_arg0) := by
  dsimp only [V1, W1]
  after_results_simp
theorem first_arg2 (c : Dev nD) : V1 m ρ c main_arg2 = m ((c : Thread nD τ).loc main_arg2) := by
  dsimp only [V1, W1]
  after_results_simp
theorem first_arg3 (c : Dev nD) : V1 m ρ c main_arg3 = m ((c : Thread nD τ).loc main_arg3) := by
  dsimp only [V1, W1]
  after_results_simp
theorem first_arg4 (c : Dev nD) : V1 m ρ c main_arg4 = m ((c : Thread nD τ).loc main_arg4) := by
  dsimp only [V1, W1]
  after_results_simp
theorem first_arg5 (c : Dev nD) : V1 m ρ c main_arg5 = m ((c : Thread nD τ).loc main_arg5) := by
  dsimp only [V1, W1]
  after_results_simp
theorem first_arg6 (c : Dev nD) : V1 m ρ c main_arg6 = m ((c : Thread nD τ).loc main_arg6) := by
  dsimp only [V1, W1]
  after_results_simp
theorem first_arg7 (c : Dev nD) : V1 m ρ c main_arg7 = m ((c : Thread nD τ).loc main_arg7) := by
  dsimp only [V1, W1]
  after_results_simp
theorem first_arg8 (c : Dev nD) : V1 m ρ c main_arg8 = m ((c : Thread nD τ).loc main_arg8) := by
  dsimp only [V1, W1]
  after_results_simp

/-- The first layer's result at the launch contents. -/
abbrev hidden (c : Dev nD) : (⟨S50000x256, .f32⟩ : BufTy).Contents (Elt Ideal) :=
  hiddenFn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The first region leaves the first layer's result in its result array. -/
theorem region0_result (c : Dev nD) : W2 m ρ c (Proc.devRef .tc main_v25) = hidden m c :=
  (W2_arr m ρ c 9).trans ((final0 (V1 m ρ) c).trans (by
    dsimp only [aggArr0, featArr0, wlArr0, wrArr0, biasArr0, scaleArr0, shiftArr0, meanArr0, varArr0, hidden, hiddenFn]
    rw [first_agg, first_arg0, first_arg2, first_arg3, first_arg4, first_arg5, first_arg6, first_arg7, first_arg8]))

/-! ## The second stretch and the second region -/

/-- The second kernel's aggregated input is the scaled sum of the first layer's result's source rows. -/
theorem second_agg (c : Dev nD) :
    V3 m ρ c main_v38 = scaled256 (hidden m c) (m ((c : Thread nD τ).loc main_arg1)) := by
  dsimp only [V3, W3]
  after_results_simp
  rw [region0_result, W2_of_ne m ρ c main_v3 (by decide), W2_of_ne m ρ c main_v1 (by decide),
    W2_of_ne m ρ c main_v11 (by decide), first_dst, first_src, first_inv]
  rfl

/-- The second region finds the first layer's result where the first region left it. -/
theorem second_hidden (c : Dev nD) : V3 m ρ c main_v25 = hidden m c := by
  dsimp only [V3, W3]
  after_results_simp
  exact region0_result m ρ c

/-- and the second layer's weights and bias as launched. -/
theorem second_arg9 (c : Dev nD) : V3 m ρ c main_arg9 = m ((c : Thread nD τ).loc main_arg9) := by
  dsimp only [V3, W3]
  after_results_simp
  rw [W2_of_ne m ρ c main_arg9 (by decide)]
  dsimp only [W1]
  after_results_simp
theorem second_arg10 (c : Dev nD) : V3 m ρ c main_arg10 = m ((c : Thread nD τ).loc main_arg10) := by
  dsimp only [V3, W3]
  after_results_simp
  rw [W2_of_ne m ρ c main_arg10 (by decide)]
  dsimp only [W1]
  after_results_simp
theorem second_arg11 (c : Dev nD) : V3 m ρ c main_arg11 = m ((c : Thread nD τ).loc main_arg11) := by
  dsimp only [V3, W3]
  after_results_simp
  rw [W2_of_ne m ρ c main_arg11 (by decide)]
  dsimp only [W1]
  after_results_simp

/-- The program's result at the launch contents. -/
abbrev result (c : Dev nD) : (⟨S50000x128, .f32⟩ : BufTy).Contents (Elt Ideal) :=
  resultFn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The second region leaves the program's result in the result array. -/
theorem region1_result (c : Dev nD) : W4 m ρ c (Proc.devRef .tc main_v39) = result m c :=
  (W4_arr m ρ c 5).trans ((final1 (V3 m ρ) c).trans (by
    dsimp only [aggArr1, hidArr1, wlArr1, wrArr1, bArr1, result, resultFn]
    rw [second_agg, second_hidden, second_arg9, second_arg10, second_arg11]))

/-- Every weakly fair execution of the kernel program terminates, nothing faulting, with the result array at
    `result` and the arguments as launched. -/
theorem run : θ_run defs (onTc (τ := τ) (main (F := Ideal))) ⟨m, fun _ => 0, ρ⟩ (fun r => ∀ c : Dev nD,
      r.2.mem ((c.tc : Thread nD τ).loc main_v39) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (region1_result m ρ c), (h c).2⟩) (Named.run_named m ρ)

end Cert.KernelIdeal.Result

end
-- ==== Proof.RefValue.lean ====
import proofs.«163756_j48318382080414_1_alg».proof.Proof.Gen.ReferenceIdeal.Read
import proofs.«163756_j48318382080414_1_alg».proof.Proof.LayerAt

/-!
# The reference's two layers, read at one entry

The reference computes each layer on the whole 50000-row arrays: two products with the weight matrices, their sum, the
bias broadcast down the rows and, in the first layer, the normalisation with fixed statistics and the clamp at zero. Read
one operation at a time at an index `(r, q)`, the first layer's result is `hiddenAt` of its aggregated array, and the
second's `denseAt` of its aggregated array and the first layer's result.
-/

noncomputable section

namespace Cert.ReferenceIdeal.RefValue

open Cert.ReferenceIdeal Cert.ReferenceIdeal.Read Cert.SageEncoder Idealize.ShloMosaic Idealize.ShloMosaic.ValueIdx

/-! ## The generated index functions at an entry `(r, q)`

A product's entry `(r, q)` reads row `r` of its left factor and column `q` of its right factor at each `k`; a column
vector spread down the rows is read at `q` alone, whatever the row. -/

/-- Left factor of the first layer's aggregated product: row `r`, position `k`. -/
theorem lidx_v23_at (r : Fin 50000) (q : Fin 256) (k : Fin 128) : lidx_main_v23 (ix2 r q) k = ix2 r k :=
  funext fun a => Fin.ext (by match a with | ⟨0, _⟩ => rfl | ⟨1, _⟩ => rfl)

/-- Right factor of the first layer's aggregated product: position `k`, column `q`. -/
theorem ridx_v23_at (r : Fin 50000) (q : Fin 256) (k : Fin 128) : ridx_main_v23 (ix2 r q) k = ix2 k q :=
  funext fun a => Fin.ext (by match a with | ⟨0, _⟩ => rfl | ⟨1, _⟩ => rfl)

/-- Left factor of the first layer's own-row product: row `r`, position `k`. -/
theorem lidx_v24_at (r : Fin 50000) (q : Fin 256) (k : Fin 128) : lidx_main_v24 (ix2 r q) k = ix2 r k :=
  funext fun a => Fin.ext (by match a with | ⟨0, _⟩ => rfl | ⟨1, _⟩ => rfl)

/-- Right factor of the first layer's own-row product: position `k`, column `q`. -/
theorem ridx_v24_at (r : Fin 50000) (q : Fin 256) (k : Fin 128) : ridx_main_v24 (ix2 r q) k = ix2 k q :=
  funext fun a => Fin.ext (by match a with | ⟨0, _⟩ => rfl | ⟨1, _⟩ => rfl)

/-- The first layer's bias, spread down the rows, is read at column `q`. -/
theorem idx_v27_at (r : Fin 50000) (q : Fin 256) : idx_main_v26 (idx_main_v27 (ix2 r q)) = ix1 q :=
  funext fun a => Fin.ext (by match a with | ⟨0, _⟩ => rfl)

/-- The mean vector, spread down the rows, is read at column `q`. -/
theorem idx_v30_at (r : Fin 50000) (q : Fin 256) : idx_main_v29 (idx_main_v30 (ix2 r q)) = ix1 q :=
  funext fun a => Fin.ext (by match a with | ⟨0, _⟩ => rfl)

/-- The inverse standard deviation, spread down the rows, is read at column `q`. -/
theorem idx_v36_at (r : Fin 50000) (q : Fin 256) : idx_main_v35 (idx_main_v36 (ix2 r q)) = ix1 q :=
  funext fun a => Fin.ext (by match a with | ⟨0, _⟩ => rfl)

/-- The scale vector, spread down the rows, is read at column `q`. -/
theorem idx_v39_at (r : Fin 50000) (q : Fin 256) : idx_main_v38 (idx_main_v39 (ix2 r q)) = ix1 q :=
  funext fun a => Fin.ext (by match a with | ⟨0, _⟩ => rfl)

/-- The shift vector, spread down the rows, is read at column `q`. -/
theorem idx_v42_at (r : Fin 50000) (q : Fin 256) : idx_main_v41 (idx_main_v42 (ix2 r q)) = ix1 q :=
  funext fun a => Fin.ext (by match a with | ⟨0, _⟩ => rfl)

/-- Left factor of the second layer's aggregated product: row `r`, position `k`. -/
theorem lidx_v64_at (r : Fin 50000) (q : Fin 128) (k : Fin 256) : lidx_main_v64 (ix2 r q) k = ix2 r k :=
  funext fun a => Fin.ext (by match a with | ⟨0, _⟩ => rfl | ⟨1, _⟩ => rfl)

/-- Right factor of the second layer's aggregated product: position `k`, column `q`. -/
theorem ridx_v64_at (r : Fin 50000) (q : Fin 128) (k : Fin 256) : ridx_main_v64 (ix2 r q) k = ix2 k q :=
  funext fun a => Fin.ext (by match a with | ⟨0, _⟩ => rfl | ⟨1, _⟩ => rfl)

/-- Left factor of the second layer's own-row product: row `r`, position `k`. -/
theorem lidx_v65_at (r : Fin 50000) (q : Fin 128) (k : Fin 256) : lidx_main_v65 (ix2 r q) k = ix2 r k :=
  funext fun a => Fin.ext (by match a with | ⟨0, _⟩ => rfl | ⟨1, _⟩ => rfl)

/-- Right factor of the second layer's own-row product: position `k`, column `q`. -/
theorem ridx_v65_at (r : Fin 50000) (q : Fin 128) (k : Fin 256) : ridx_main_v65 (ix2 r q) k = ix2 k q :=
  funext fun a => Fin.ext (by match a with | ⟨0, _⟩ => rfl | ⟨1, _⟩ => rfl)

/-- The second layer's bias, spread down the rows, is read at column `q`. -/
theorem idx_v68_at (r : Fin 50000) (q : Fin 128) : idx_main_v67 (idx_main_v68 (ix2 r q)) = ix1 q :=
  funext fun a => Fin.ext (by match a with | ⟨0, _⟩ => rfl)

/-! ## The two layers -/

/-- The first layer's result (after the clamp) is, entry by entry, the normalised and clamped sum over the aggregated
    array `%22`, the node features, the two weight matrices, the bias and the four statistics vectors. -/
theorem hidden_eq (x0 : (⟨S50000x128, .f32⟩ : BufTy).Contents (Elt Ideal)) (x1 : (⟨S2x600000, .i32⟩ : BufTy).Contents (Elt Ideal))
    (x2 x3 : (⟨S128x256, .f32⟩ : BufTy).Contents (Elt Ideal)) (x4 x5 x6 x7 x8 : (⟨S256, .f32⟩ : BufTy).Contents (Elt Ideal)) :
    val_main_v44 (F := Ideal) x0 x1 x2 x3 x4 x5 x6 x7 x8
      = hiddenArr (val_main_v22 (F := Ideal) x0 x1) x0 x2 x3 x4 x5 x6 x7 x8 := by
  funext i
  obtain ⟨r, q, rfl⟩ : ∃ (r : Fin 50000) (q : Fin 256), i = ix2 r q := ⟨i 0, i 1, eq_ix2 i⟩
  rw [hiddenArr_apply]
  unfold hiddenAt normRelu denseAt
  -- the clamp, the shift, the scale, the inverse deviation, the mean, the bias and the two products, outermost first
  rw [val_main_v44_apply, val_main_v43_apply, val_main_v40_apply, val_main_v37_apply, val_main_v31_apply,
    val_main_v28_apply, val_main_v25_apply, val_main_v23_apply, val_main_v24_apply,
    val_main_v27_apply, val_main_v26_apply, val_main_v30_apply, val_main_v29_apply,
    val_main_v36_apply, val_main_v35_apply, val_main_v34_apply, val_main_v33_apply, val_main_v32_apply,
    val_main_cst_4_apply, val_main_v39_apply, val_main_v38_apply, val_main_v42_apply, val_main_v41_apply,
    val_main_call0_v0_apply, val_main_call0_cst_apply]
  generalize val_main_v22 (F := Ideal) x0 x1 = agg
  simp only [lidx_v23_at, ridx_v23_at, lidx_v24_at, ridx_v24_at, idx_v27_at, idx_v30_at, idx_v36_at, idx_v39_at,
    idx_v42_at]
  -- on the extended reals the operations are the sum, difference, product, inverse root and maximum themselves
  rfl

/-- The second layer's result is, entry by entry, the sum over its aggregated array `%63`, the first layer's result
    `%44`, the two weight matrices and the bias. -/
theorem out_eq (x0 : (⟨S50000x128, .f32⟩ : BufTy).Contents (Elt Ideal)) (x1 : (⟨S2x600000, .i32⟩ : BufTy).Contents (Elt Ideal))
    (x2 x3 : (⟨S128x256, .f32⟩ : BufTy).Contents (Elt Ideal)) (x4 x5 x6 x7 x8 : (⟨S256, .f32⟩ : BufTy).Contents (Elt Ideal))
    (x9 x10 : (⟨S256x128, .f32⟩ : BufTy).Contents (Elt Ideal)) (x11 : (⟨S128, .f32⟩ : BufTy).Contents (Elt Ideal)) :
    val_main_v69 (F := Ideal) x0 x1 x2 x3 x4 x5 x6 x7 x8 x9 x10 x11
      = denseArr (val_main_v63 (F := Ideal) x0 x1 x2 x3 x4 x5 x6 x7 x8) (val_main_v44 (F := Ideal) x0 x1 x2 x3 x4 x5 x6 x7 x8)
          x9 x10 x11 := by
  funext i
  obtain ⟨r, q, rfl⟩ : ∃ (r : Fin 50000) (q : Fin 128), i = ix2 r q := ⟨i 0, i 1, eq_ix2 i⟩
  rw [denseArr_apply]
  unfold denseAt
  -- the bias and the two products, outermost first
  rw [val_main_v69_apply, val_main_v66_apply, val_main_v64_apply, val_main_v65_apply, val_main_v68_apply,
    val_main_v67_apply]
  generalize val_main_v63 (F := Ideal) x0 x1 x2 x3 x4 x5 x6 x7 x8 = agg
  generalize val_main_v44 (F := Ideal) x0 x1 x2 x3 x4 x5 x6 x7 x8 = hid
  simp only [lidx_v64_at, ridx_v64_at, lidx_v65_at, ridx_v65_at, idx_v68_at]
  rfl

end Cert.ReferenceIdeal.RefValue

end
-- ==== Proof.LibSageLayer.lean ====
import Idealize.ShloMosaic.PureOps.Ideal.Laws
import Idealize.ShloMosaic.Lib.ValueIdx

/-!
# One mean-aggregating graph layer over the extended reals, read at one entry

A layer of a mean-aggregating graph network sends node `r` to
`(A r / d r) · Wₗ + b + X r · Wᵣ`: `A r` the sum of the neighbours' rows, `d r ≥ 1` the node's degree clamped below by one,
`X r` the node's own row. A kernel may instead scale the aggregated row by the reciprocal `1 / d r`, computed once per node
and kept as a column, and add the bias last. Over the extended reals the quotient by a non-zero `d` IS the product with
`d⁻¹` — also when `d` is infinite, where both are the product with zero — so the two forms agree entry by entry with no
finiteness assumption on the rows; the three summands only change places, and addition of extended reals is commutative
and associative.
-/

noncomputable section

namespace Idealize.ShloMosaic.SageLayer

open Idealize.ShloMosaic Idealize.ShloMosaic.ValueIdx

/-- Scaling by the reciprocal of a non-zero extended real is dividing by it. -/
theorem mul_div_one (a d : EReal) (hd : d ≠ 0) : a * Ideal.div 1 d = Ideal.div a d := by
  unfold Ideal.div
  rw [if_neg hd, if_neg hd, one_mul]

/-- A degree clamped below by one is not zero. -/
theorem max_one_ne_zero (x : EReal) : max x 1 ≠ 0 :=
  ne_of_gt (lt_of_lt_of_le zero_lt_one (le_max_right x 1))

/-- A vector clamped below, entry by entry, by a vector that is one at `i` is not zero at `i`. -/
theorem maximumf_ne_zero_of_one {s : Shape} (a b : FVec Ideal s .f32) (i : s.Idx) (hb : b i = 1) : maximumf a b i ≠ 0 := by
  rw [maximumf_apply, hb]
  exact max_one_ne_zero _

/-- The host's quotient of a vector that is one at `i` by `b` is, at `i`, one over `b i`. -/
theorem hostDivf_one_apply {s : Shape} (a b : FVec Ideal s .f32) (i : s.Idx) (ha : a i = 1) :
    Host.divf a b i = Ideal.div 1 (b i) := by
  show Ideal.div (a i) (b i) = _
  rw [ha]

/-- The float word `0x3F800000` is the number one. -/
theorem ofBits_one_f32 : Ideal.ofBits .f32 0x3F800000#32 = 1 := by
  simp [Ideal.ofBits, Ideal.ieee, -EReal.coe_mul]; norm_num

/-- Entry `(r, q)` of a layer as a kernel forms it: the aggregated row scaled by the node's reciprocal degree (a column)
    against the neighbour weights, plus the node's own row against the root weights, plus the bias (a row). -/
def scaledAt {n K N : Nat} (agg : (⟨2, ![n, K]⟩ : Shape).Idx → EReal) (inv : (⟨2, ![n, 1]⟩ : Shape).Idx → EReal)
    (root : (⟨2, ![n, K]⟩ : Shape).Idx → EReal) (wl : (⟨2, ![K, N]⟩ : Shape).Idx → EReal)
    (b : (⟨2, ![1, N]⟩ : Shape).Idx → EReal) (wr : (⟨2, ![K, N]⟩ : Shape).Idx → EReal) (r : Fin n) (q : Fin N) : EReal :=
  (∑ k : Fin K, (agg (ix2 r k) * inv (ix2 r (0 : Fin 1))) * wl (ix2 k q)) + (∑ k : Fin K, root (ix2 r k) * wr (ix2 k q))
    + b (ix2 (0 : Fin 1) q)

/-- An entry of the layer reads one row of the node arrays, one column of the weights and one bias entry: two families of
    arrays (of any numbers of rows) that agree there give the same entry. -/
theorem scaledAt_congr {n n' K N : Nat} (agg : (⟨2, ![n, K]⟩ : Shape).Idx → EReal) (inv : (⟨2, ![n, 1]⟩ : Shape).Idx → EReal)
    (root : (⟨2, ![n, K]⟩ : Shape).Idx → EReal) (wl : (⟨2, ![K, N]⟩ : Shape).Idx → EReal)
    (b : (⟨2, ![1, N]⟩ : Shape).Idx → EReal) (wr : (⟨2, ![K, N]⟩ : Shape).Idx → EReal)
    (agg' : (⟨2, ![n', K]⟩ : Shape).Idx → EReal) (inv' : (⟨2, ![n', 1]⟩ : Shape).Idx → EReal)
    (root' : (⟨2, ![n', K]⟩ : Shape).Idx → EReal) (wl' : (⟨2, ![K, N]⟩ : Shape).Idx → EReal)
    (b' : (⟨2, ![1, N]⟩ : Shape).Idx → EReal) (wr' : (⟨2, ![K, N]⟩ : Shape).Idx → EReal)
    (r : Fin n) (r' : Fin n') (q : Fin N)
    (hagg : ∀ k : Fin K, agg (ix2 r k) = agg' (ix2 r' k)) (hinv : inv (ix2 r (0 : Fin 1)) = inv' (ix2 r' (0 : Fin 1)))
    (hroot : ∀ k : Fin K, root (ix2 r k) = root' (ix2 r' k)) (hwl : ∀ k : Fin K, wl (ix2 k q) = wl' (ix2 k q))
    (hb : b (ix2 (0 : Fin 1) q) = b' (ix2 (0 : Fin 1) q)) (hwr : ∀ k : Fin K, wr (ix2 k q) = wr' (ix2 k q)) :
    scaledAt agg inv root wl b wr r q = scaledAt agg' inv' root' wl' b' wr' r' q := by
  unfold scaledAt
  rw [hinv, hb]
  refine congrArg (· + _) (congrArg₂ (· + ·) (Finset.sum_congr rfl fun k _ => ?_) (Finset.sum_congr rfl fun k _ => ?_))
  · rw [hagg k, hwl k]
  · rw [hroot k, hwr k]

/-- Entry `(r, q)` of a layer as the textbook writes it: the aggregated row divided by the clamped degree against the
    neighbour weights, plus the bias, plus the node's own row against the root weights. -/
def meanAt {n K N : Nat} (agg : (⟨2, ![n, K]⟩ : Shape).Idx → EReal) (d : (⟨1, ![n]⟩ : Shape).Idx → EReal)
    (root : (⟨2, ![n, K]⟩ : Shape).Idx → EReal) (wl : (⟨2, ![K, N]⟩ : Shape).Idx → EReal)
    (b : (⟨1, ![N]⟩ : Shape).Idx → EReal) (wr : (⟨2, ![K, N]⟩ : Shape).Idx → EReal) (r : Fin n) (q : Fin N) : EReal :=
  (∑ k : Fin K, Ideal.div (agg (ix2 r k)) (d (ix1 r)) * wl (ix2 k q)) + b (ix1 q) + ∑ k : Fin K, root (ix2 r k) * wr (ix2 k q)

/-- The two forms agree at `(r, q)` when the column holds the reciprocal of a non-zero degree at `r` and the bias row holds
    the bias vector at `q`. -/
theorem scaledAt_eq_meanAt {n K N : Nat} (agg : (⟨2, ![n, K]⟩ : Shape).Idx → EReal)
    (inv : (⟨2, ![n, 1]⟩ : Shape).Idx → EReal) (d : (⟨1, ![n]⟩ : Shape).Idx → EReal)
    (root : (⟨2, ![n, K]⟩ : Shape).Idx → EReal) (wl : (⟨2, ![K, N]⟩ : Shape).Idx → EReal)
    (b' : (⟨2, ![1, N]⟩ : Shape).Idx → EReal) (b : (⟨1, ![N]⟩ : Shape).Idx → EReal)
    (wr : (⟨2, ![K, N]⟩ : Shape).Idx → EReal) (r : Fin n) (q : Fin N)
    (hinv : inv (ix2 r (0 : Fin 1)) = Ideal.div 1 (d (ix1 r))) (hd : d (ix1 r) ≠ 0)
    (hb : b' (ix2 (0 : Fin 1) q) = b (ix1 q)) :
    scaledAt agg inv root wl b' wr r q = meanAt agg d root wl b wr r q := by
  unfold scaledAt meanAt
  rw [hinv, hb, add_right_comm]
  refine congrArg (· + _) (congrArg (· + _) (Finset.sum_congr rfl fun k _ => ?_))
  rw [mul_div_one _ _ hd]

end Idealize.ShloMosaic.SageLayer

end
-- ==== Proof.LibMeanScale.lean ====
import Idealize.ShloMosaic.PureOps.Ideal.Laws
import Idealize.ShloMosaic.Lib.ValueIdx
import Idealize.ShloMosaic.Lib.Pipeline.Value
import proofs.«163756_j48318382080414_1_alg».proof.Proof.LibSageLayer

/-!
# A mean over neighbours: scaling by the reciprocal degree is dividing by the degree, array by array

An `n × d` array of aggregated rows is turned into means either by multiplying row `r` with `1 / max (deg r) 1`, the
reciprocal computed once per node and then laid out as a column and repeated along the row, or by dividing row `r` by
`max (deg r) 1` laid out the same way. The clamped degree is never zero, so over the extended reals the two arrays are
equal entry by entry, with no finiteness assumption on the rows or on the degrees.
-/

noncomputable section

namespace Idealize.ShloMosaic.MeanScale

open Idealize.ShloMosaic Idealize.ShloMosaic.ValueIdx

/-- A vector laid out as a column (`[n] → [n, 1]` along axis 0) and repeated along the rows (`[n, 1] → [n, d]`) reads, at
    `(r, q)`, the vector at `r`. -/
theorem colAcross_apply {α : Type} {n d : ℕ} (v : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, d]⟩ ![0, 1]) (r : Fin n) (q : Fin d) :
    broadcastInDim ⟨2, ![n, d]⟩ ![0, 1] h2 (broadcastInDim ⟨2, ![n, 1]⟩ ![0] h1 v) (ix2 r q) = v (ix1 r) := by
  -- the outer step reads the column at `(r, 0)`, the inner step the vector at `r`; on an axis of extent one the
  -- coordinate read is `0`, which is `r` itself when `n = 1`
  refine (broadcastInDim_apply ![0, 1] h2 _ (ix2 r q) (ix2 r (0 : Fin 1)) fun a => ?_).trans
    (broadcastInDim_apply ![0] h1 v (ix2 r (0 : Fin 1)) (ix1 r) fun a => ?_)
  · match a with
    | ⟨0, _⟩ =>
      show r.val = if n = 1 then 0 else r.val
      split
      · have := r.isLt; omega
      · rfl
    | ⟨1, _⟩ =>
      show 0 = if (1 : ℕ) = 1 then 0 else q.val
      rw [if_pos rfl]
  · match a with
    | ⟨0, _⟩ =>
      show r.val = if n = 1 then 0 else r.val
      split
      · have := r.isLt; omega
      · rfl

/-- The array scaled by the reciprocals of the clamped degrees is the array divided by the clamped degrees; `one₁` and
    `one₂` are the two all-ones vectors the programs build. -/
theorem scaled_eq_divided {n d : ℕ} (A : FVec Ideal ⟨2, ![n, d]⟩ .f32) (deg one₁ one₂ : FVec Ideal ⟨1, ![n]⟩ .f32)
    (h1 : (⟨1, ![n]⟩ : Shape).BroadcastsInDim ⟨2, ![n, 1]⟩ ![0])
    (h2 : (⟨2, ![n, 1]⟩ : Shape).BroadcastsInDim ⟨2, ![n, d]⟩ ![0, 1])
    (hone₁ : ∀ i, one₁ i = 1) (hone₂ : ∀ i, one₂ i = 1) :
    mulf A (broadcastInDim ⟨2, ![n, d]⟩ ![0, 1] h2 (broadcastInDim ⟨2, ![n, 1]⟩ ![0] h1
        (Host.divf (F := Ideal) one₂ (maximumf deg one₁))))
      = Host.divf (F := Ideal) A (broadcastInDim ⟨2, ![n, d]⟩ ![0, 1] h2 (broadcastInDim ⟨2, ![n, 1]⟩ ![0] h1
        (maximumf deg one₁))) := by
  funext i
  obtain ⟨r, q, rfl⟩ : ∃ (r : Fin n) (q : Fin d), i = ix2 r q := ⟨i 0, i 1, eq_ix2 i⟩
  -- left: the entry times the reciprocal at `r`; right: the entry divided by the clamped degree at `r`
  rw [mulf_apply, colAcross_apply]
  show _ = Ideal.div (A (ix2 r q)) (broadcastInDim ⟨2, ![n, d]⟩ ![0, 1] h2 (broadcastInDim ⟨2, ![n, 1]⟩ ![0] h1
    (maximumf deg one₁)) (ix2 r q))
  rw [colAcross_apply, SageLayer.hostDivf_one_apply one₂ (maximumf deg one₁) (ix1 r) (hone₂ _)]
  exact SageLayer.mul_div_one _ _ (SageLayer.maximumf_ne_zero_of_one deg one₁ (ix1 r) (hone₁ _))

end Idealize.ShloMosaic.MeanScale

end
-- ==== Proof.RefAgg.lean ====
import proofs.«163756_j48318382080414_1_alg».proof.Proof.Gen.ReferenceIdeal.Read
import proofs.«163756_j48318382080414_1_alg».proof.Proof.LibMeanScale

/-!
# The reference's two aggregated arrays as scaled sums

The reference divides each scatter-added array by the clamped degree, laid out as a column and repeated along the rows,
and it recomputes the degree for the second layer. Both quotients are the scatter-added array scaled by ONE vector of
reciprocals `1 / max (deg r) 1`: the two degree computations are the same operations on the same destination
indices, and dividing by a clamped degree is scaling by its reciprocal.
-/

noncomputable section

namespace Cert.ReferenceIdeal.RefAgg

open Cert.ReferenceIdeal Cert.ReferenceIdeal.Gen Cert.ReferenceIdeal.Read Idealize.ShloMosaic Idealize.ShloMosaic.ValueIdx

/-- The reciprocal of each node's clamped degree, from the first layer's degree computation. -/
def invDeg (x1 : (⟨S2x600000, .i32⟩ : BufTy).Contents (Elt Ideal)) : (⟨S50000, .f32⟩ : BufTy).Contents (Elt Ideal) :=
  Host.divf (F := Ideal) (φ := .f32) (val_main_v18 (F := Ideal)) (val_main_v19 (F := Ideal) x1)

/-- The all-ones vector `%18` is the number one at every node. -/
theorem ones_apply (i : S50000.Idx) : val_main_v18 (F := Ideal) i = 1 := by
  rw [val_main_v18_apply, val_main_cst_3_apply]
  exact SageLayer.ofBits_one_f32

/-- The second layer's clamped degree `%60` is the first layer's `%19`: the same ones added at the same destination
    indices into the same zeros, clamped below by the same ones. -/
theorem clampedDeg_again (x1 : (⟨S2x600000, .i32⟩ : BufTy).Contents (Elt Ideal)) :
    val_main_v60 (F := Ideal) x1 = val_main_v19 (F := Ideal) x1 := rfl

/-- The first layer's aggregated array `%22` is its scatter-added array `%13` scaled by the reciprocals. -/
theorem agg1_scaled (x0 : (⟨S50000x128, .f32⟩ : BufTy).Contents (Elt Ideal)) (x1 : (⟨S2x600000, .i32⟩ : BufTy).Contents (Elt Ideal)) :
    val_main_v22 (F := Ideal) x0 x1
      = mulf (F := Ideal) (φ := .f32) (val_main_v13 (F := Ideal) x0 x1)
          (broadcastInDim S50000x128 ![0, 1] bcast_S50000x1_S50000x128_0_1
            (broadcastInDim S50000x1 ![0] bcast_S50000_S50000x1_0 (invDeg x1))) := by
  -- `%22` is `%13` divided by the clamped degree laid out as a column and repeated along the rows
  unfold val_main_v22 val_main_v21 val_main_v20 invDeg val_main_v19
  generalize val_main_v13 (F := Ideal) x0 x1 = A
  generalize val_main_v17 (F := Ideal) x1 = deg
  exact (MeanScale.scaled_eq_divided (n := 50000) (d := 128) A deg (val_main_v18 (F := Ideal)) (val_main_v18 (F := Ideal))
    _ _ ones_apply ones_apply).symm

/-- The second layer's aggregated array `%63` is its scatter-added array `%54` scaled by the same reciprocals. -/
theorem agg2_scaled (x0 : (⟨S50000x128, .f32⟩ : BufTy).Contents (Elt Ideal)) (x1 : (⟨S2x600000, .i32⟩ : BufTy).Contents (Elt Ideal))
    (x2 x3 : (⟨S128x256, .f32⟩ : BufTy).Contents (Elt Ideal)) (x4 x5 x6 x7 x8 : (⟨S256, .f32⟩ : BufTy).Contents (Elt Ideal)) :
    val_main_v63 (F := Ideal) x0 x1 x2 x3 x4 x5 x6 x7 x8
      = mulf (F := Ideal) (φ := .f32) (val_main_v54 (F := Ideal) x0 x1 x2 x3 x4 x5 x6 x7 x8)
          (broadcastInDim S50000x256 ![0, 1] bcast_S50000x1_S50000x256_0_1
            (broadcastInDim S50000x1 ![0] bcast_S50000_S50000x1_0 (invDeg x1))) := by
  -- `%63` is `%54` divided by the recomputed clamped degree, which is the first layer's
  unfold val_main_v63 val_main_v62 val_main_v61
  rw [clampedDeg_again]
  unfold invDeg val_main_v19
  generalize val_main_v54 (F := Ideal) x0 x1 x2 x3 x4 x5 x6 x7 x8 = A
  generalize val_main_v17 (F := Ideal) x1 = deg
  exact (MeanScale.scaled_eq_divided (n := 50000) (d := 256) A deg (val_main_v18 (F := Ideal)) (val_main_v18 (F := Ideal))
    _ _ ones_apply ones_apply).symm

end Cert.ReferenceIdeal.RefAgg

end
-- ==== Proof.Bridge.lean ====
import proofs.«163756_j48318382080414_1_alg».proof.Proof.KernelValue
import proofs.«163756_j48318382080414_1_alg».proof.Proof.RefValue
import proofs.«163756_j48318382080414_1_alg».proof.Proof.RefAgg

/-!
# The two programs compute one function

Both programs gather the source rows of an array, scatter-add them at the destinations and turn the sums into means; the
kernel program scales by the reciprocal of the clamped degree, the reference divides by the clamped degree (the one law
between the two sides, which needs no finiteness). The gathers, the scatter-adds and the index arithmetic are the same
operations on the same operands on both sides and are never opened. Each layer's dense part is, on both sides, the same
entry formula of the aggregated array, the node array, the weights and the column vectors. So the first layer's results
agree, hence the second layer's aggregated arrays, hence the results.
-/

set_option maxRecDepth 16384

noncomputable section

namespace Cert.Proof.Bridge

open Cert.KernelIdeal.HostValue Cert.KernelIdeal.Result Cert.ReferenceIdeal.Read Cert.SageEncoder
open Idealize.ShloMosaic

/-- The reciprocals of the clamped degrees are one vector on both sides. -/
theorem invDeg_same (ei : (⟨Cert.ReferenceIdeal.S2x600000, .i32⟩ : BufTy).Contents (Elt Ideal)) :
    invDeg ei = Cert.ReferenceIdeal.RefAgg.invDeg ei := by
  unfold invDeg degree onesNodes dstIdx Cert.ReferenceIdeal.RefAgg.invDeg val_main_v19 val_main_v18 val_main_v17 val_main_v16
    val_main_v15 val_main_v14 val_main_cst_3 val_main_cst_2 val_main_cst_1 val_main_v3 val_main_v2
  rfl

/-- The first layer's summed neighbour rows are one array on both sides, whatever array is gathered from. -/
theorem summed128_same (X : (⟨Cert.ReferenceIdeal.S50000x128, .f32⟩ : BufTy).Contents (Elt Ideal))
    (ei : (⟨Cert.ReferenceIdeal.S2x600000, .i32⟩ : BufTy).Contents (Elt Ideal)) :
    summed128 X ei = val_main_v13 (F := Ideal) X ei := by
  unfold summed128 dstIdx srcWrapped srcIdx val_main_v13 val_main_v12 val_main_v11 val_main_v10 val_main_v9 val_main_v8
    val_main_v7 val_main_v6 val_main_v5 val_main_v4 val_main_v3 val_main_v2 val_main_v1 val_main_v0 val_main_cst val_main_c
    val_main_c_0
  rfl

/-- The first layer's aggregated array is one array on both sides: the reference's quotient is the scaled sum. -/
theorem scaled128_same (X : (⟨Cert.ReferenceIdeal.S50000x128, .f32⟩ : BufTy).Contents (Elt Ideal))
    (ei : (⟨Cert.ReferenceIdeal.S2x600000, .i32⟩ : BufTy).Contents (Elt Ideal)) :
    scaled128 X ei = val_main_v22 (F := Ideal) X ei := by
  rw [Cert.ReferenceIdeal.RefAgg.agg1_scaled]
  unfold scaled128
  rw [summed128_same, invDeg_same]

/-- The first layer's result is one array on both sides. -/
theorem hidden_same (x0 : (⟨Cert.ReferenceIdeal.S50000x128, .f32⟩ : BufTy).Contents (Elt Ideal))
    (x1 : (⟨Cert.ReferenceIdeal.S2x600000, .i32⟩ : BufTy).Contents (Elt Ideal))
    (x2 x3 : (⟨Cert.ReferenceIdeal.S128x256, .f32⟩ : BufTy).Contents (Elt Ideal))
    (x4 x5 x6 x7 x8 : (⟨Cert.ReferenceIdeal.S256, .f32⟩ : BufTy).Contents (Elt Ideal)) :
    hiddenFn x0 x1 x2 x3 x4 x5 x6 x7 x8 = val_main_v44 (F := Ideal) x0 x1 x2 x3 x4 x5 x6 x7 x8 := by
  rw [Cert.ReferenceIdeal.RefValue.hidden_eq]
  unfold hiddenFn
  rw [scaled128_same]

/-- The second layer's summed neighbour rows of the first layer's result are one array on both sides. -/
theorem summed256_same (x0 : (⟨Cert.ReferenceIdeal.S50000x128, .f32⟩ : BufTy).Contents (Elt Ideal))
    (x1 : (⟨Cert.ReferenceIdeal.S2x600000, .i32⟩ : BufTy).Contents (Elt Ideal))
    (x2 x3 : (⟨Cert.ReferenceIdeal.S128x256, .f32⟩ : BufTy).Contents (Elt Ideal))
    (x4 x5 x6 x7 x8 : (⟨Cert.ReferenceIdeal.S256, .f32⟩ : BufTy).Contents (Elt Ideal)) :
    summed256 (val_main_v44 (F := Ideal) x0 x1 x2 x3 x4 x5 x6 x7 x8) x1
      = val_main_v54 (F := Ideal) x0 x1 x2 x3 x4 x5 x6 x7 x8 := by
  unfold val_main_v54 val_main_v51
  generalize val_main_v44 (F := Ideal) x0 x1 x2 x3 x4 x5 x6 x7 x8 = H
  unfold summed256 dstIdx srcWrapped srcIdx val_main_v53 val_main_v52 val_main_v50 val_main_v49 val_main_v48 val_main_v47
    val_main_v46 val_main_v45 val_main_cst_7 val_main_c_5 val_main_c_6 val_main_v3 val_main_v2 val_main_v1 val_main_v0
  rfl

/-- The programs' results are one array. -/
theorem result_same (x0 : (⟨Cert.ReferenceIdeal.S50000x128, .f32⟩ : BufTy).Contents (Elt Ideal))
    (x1 : (⟨Cert.ReferenceIdeal.S2x600000, .i32⟩ : BufTy).Contents (Elt Ideal))
    (x2 x3 : (⟨Cert.ReferenceIdeal.S128x256, .f32⟩ : BufTy).Contents (Elt Ideal))
    (x4 x5 x6 x7 x8 : (⟨Cert.ReferenceIdeal.S256, .f32⟩ : BufTy).Contents (Elt Ideal))
    (x9 x10 : (⟨Cert.ReferenceIdeal.S256x128, .f32⟩ : BufTy).Contents (Elt Ideal))
    (x11 : (⟨Cert.ReferenceIdeal.S128, .f32⟩ : BufTy).Contents (Elt Ideal)) :
    resultFn x0 x1 x2 x3 x4 x5 x6 x7 x8 x9 x10 x11 = val_main_v69 (F := Ideal) x0 x1 x2 x3 x4 x5 x6 x7 x8 x9 x10 x11 := by
  rw [Cert.ReferenceIdeal.RefValue.out_eq, Cert.ReferenceIdeal.RefAgg.agg2_scaled]
  unfold resultFn scaled256
  rw [hidden_same, summed256_same, invDeg_same]

end Cert.Proof.Bridge

end
-- ==== Proof.lean ====
/-
  A two-layer graph encoder with mean aggregation, 50000 nodes and 600000 edges. Each layer sends node `r` to
  `mean(r) · Wₗ + x(r) · Wᵣ + b`, where `mean(r)` is the sum of the rows of `r`'s incoming neighbours divided by
  `max (deg r) 1`; the first layer (128 → 256 columns) is followed by a normalisation with fixed column statistics,
  `(u − μ) · (σ² + ε)^(-1/2) · γ + β`, and a clamp at zero; the second (256 → 128) is not.

  The kernel program leaves the gather and the scatter-add to the host and runs the dense part of each layer as a kernel
  over 25 blocks of 2000 rows, the operands rounded to a narrower float format on the way into the products. Over the
  extended reals a rounding is no change of value, a product into a zero accumulator is the plain row-by-column sum, and a
  block's row `p` at point `t` is the array's row `2000 t + p`; so each kernel region leaves the layer's entry formula
  at every index of its result array (Proof/KernelPayload.lean, Proof/KernelRegions.lean over Proof/LayerAt.lean). Read one
  operation at a time, the reference's two layers are the same entry formulas (Proof/RefValue.lean).

  The two sides differ in one place: the kernel program multiplies the summed rows by the reciprocal
  `1 / max (deg r) 1`, computed once, where the reference divides by `max (deg r) 1`, computed per layer. The clamped
  degree is never zero, and dividing an extended real by a non-zero one IS multiplying by its inverse (also at the
  infinities), so the two aggregated arrays are equal with no finiteness assumption (Proof/LibMeanScale.lean over
  Proof/LibSageLayer.lean, applied in Proof/RefAgg.lean). The gathers, scatter-adds and index wrap-arounds are the same
  operations on the same operands on both sides and are carried as they stand (Proof/Bridge.lean). The precondition is
  never opened.

  The kernel program's run is its generated frame's launch with the result array also read at the last boundary
  (Proof/KernelRun.lean), walked back through the second region, the second host stretch, the first region and the first
  host stretch (Proof/KernelHost.lean, Proof/KernelValue.lean). No rewrite was made by the idealisation, so `preserves`
  asks nothing.
-/
import proofs.«163756_j48318382080414_1_alg».proof.Defs
import proofs.«163756_j48318382080414_1_alg».proof.Proof.Gen.Kernel
import proofs.«163756_j48318382080414_1_alg».proof.Proof.Gen.Kernel.Skeleton
import proofs.«163756_j48318382080414_1_alg».proof.Proof.Gen.Kernel.Launch
import proofs.«163756_j48318382080414_1_alg».proof.Proof.Gen.Kernel.Points
import proofs.«163756_j48318382080414_1_alg».proof.Proof.Gen.Kernel.Frame
import proofs.«163756_j48318382080414_1_alg».proof.Proof.Gen.KernelIdeal
import proofs.«163756_j48318382080414_1_alg».proof.Proof.Gen.KernelIdeal.Skeleton
import proofs.«163756_j48318382080414_1_alg».proof.Proof.Gen.KernelIdeal.Launch
import proofs.«163756_j48318382080414_1_alg».proof.Proof.Gen.KernelIdeal.Points
import proofs.«163756_j48318382080414_1_alg».proof.Proof.Gen.KernelIdeal.Frame
import proofs.«163756_j48318382080414_1_alg».proof.Proof.Gen.ReferenceIdeal
import proofs.«163756_j48318382080414_1_alg».proof.Proof.Gen.ReferenceIdeal.Run
import proofs.«163756_j48318382080414_1_alg».proof.Proof.Gen.ReferenceIdeal.Read
import proofs.«163756_j48318382080414_1_alg».proof.Proof.Gen.Pre_finite_inputs
import proofs.«163756_j48318382080414_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program over the extended reals. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Run from memories that agree on the arguments, both programs end with the result array at one function of the
    arguments: the kernel program at `resultFn`, the reference at its last operation's value, which is `resultFn`. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v69_eq, h0, h1, h2, h3, h4, h5, h6, h7, h8, h9, h10, h11]
  exact (Cert.Proof.Bridge.result_same _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
